-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x16 .f32) (main_arg3 : FVec F S16 .f32) (main_arg4 : FVec F S16x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg2
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S1000x1433 : Shape := ⟨2, ![1000, 1433]⟩
abbrev S1000x16 : Shape := ⟨2, ![1000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x7 : Shape := ⟨2, ![100000, 7]⟩
abbrev S5000x16 : Shape := ⟨2, ![5000, 16]⟩
abbrev S5000x7 : Shape := ⟨2, ![5000, 7]⟩
abbrev S3200000x7 : Shape := ⟨2, ![3200000, 7]⟩
abbrev S1x7 : Shape := ⟨2, ![1, 7]⟩

abbrev nBuf : Space → Nat
  | .hbm => 49
  | .vmem => 10
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x7, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x7, .f32⟩
  | .hbm, ⟨41, _⟩ => ⟨S_, .f32⟩
  | .hbm, ⟨42, _⟩ => ⟨S100000x7, .f32⟩
  | .hbm, ⟨43, _⟩ => ⟨S3200000x1, .i32⟩
  | .hbm, ⟨44, _⟩ => ⟨S100000x7, .f32⟩
  | .hbm, ⟨45, _⟩ => ⟨S100000x7, .f32⟩
  | .hbm, ⟨46, _⟩ => ⟨S1x7, .f32⟩
  | .hbm, ⟨47, _⟩ => ⟨S100000x7, .f32⟩
  | .hbm, ⟨48, _⟩ => ⟨S100000x7, .f32⟩
  | .local _ .vmem, ⟨0, _⟩ => ⟨S1000x1433, .f32⟩
  | .local _ .vmem, ⟨1, _⟩ => ⟨S1000x1433, .f32⟩
  | .local _ .vmem, ⟨2, _⟩ => ⟨S1433x16, .f32⟩
  | .local _ .vmem, ⟨3, _⟩ => ⟨S1000x16, .f32⟩
  | .local _ .vmem, ⟨4, _⟩ => ⟨S1000x16, .f32⟩
  | .local _ .vmem, ⟨5, _⟩ => ⟨S5000x16, .f32⟩
  | .local _ .vmem, ⟨6, _⟩ => ⟨S5000x16, .f32⟩
  | .local _ .vmem, ⟨7, _⟩ => ⟨S16x7, .f32⟩
  | .local _ .vmem, ⟨8, _⟩ => ⟨S5000x7, .f32⟩
  | .local _ .vmem, ⟨9, _⟩ => ⟨S5000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S1000x16_S1000x16_0_0 : ∀ a, (![0, 0] : Fin 2 → Nat) a + S1000x16.size a ≤ S1000x16.size a
  h_S1000x16 : 0 < S1000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S1000x1433_S1433x16_S1000x16_1_0_0_1_n_n_wf : DotDims.WF S1000x1433 S1433x16 S1000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x7_S5000x7_1_0_0_1_n_n_wf : DotDims.WF S5000x16 S16x7 S5000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S100000x1433.size a
  hwx0_0 : ∀ i : grid0.Coords, EltTy.bits .f32 = 32 ∨ (Rect.block (s := S100000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S100000x16.size a
  hwx0_2 : ∀ i : grid0.Coords, EltTy.bits .f32 = 32 ∨ (Rect.block (s := S100000x16) S1000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def dot_S1000x1433_S1433x16_S1000x16_1_0_0_1_n_n : DotDims S1000x1433 S1433x16 S1000x16 where
  lhsContracting := [1]
  rhsContracting := [0]
  lhsNonContracting := [0]
  rhsNonContracting := [1]
  lhsBatch := []
  rhsBatch := []
  wf := dot_S1000x1433_S1433x16_S1000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩

abbrev nBuf : Space → Nat
  | .hbm => 49
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x7, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x7, .f32⟩
  | .hbm, ⟨41, _⟩ => ⟨S_, .f32⟩
  | .hbm, ⟨42, _⟩ => ⟨S100000x7, .f32⟩
  | .hbm, ⟨43, _⟩ => ⟨S3200000x1, .i32⟩
  | .hbm, ⟨44, _⟩ => ⟨S100000x7, .f32⟩
  | .hbm, ⟨45, _⟩ => ⟨S100000x7, .f32⟩
  | .hbm, ⟨46, _⟩ => ⟨S1x7, .f32⟩
  | .hbm, ⟨47, _⟩ => ⟨S100000x7, .f32⟩
  | .hbm, ⟨48, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x1433_S1433x16_S100000x16_1_0_0_1_n_n_wf : DotDims.WF S100000x1433 S1433x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.Products.lean ====
/-
  The two matrix products of the network as plain sums over the extended reals: entry (r, q) of a product is the sum
  over the contracted axis k of (row r, column k of the left factor) times (row k, column q of the right factor).
  The reference's two `dot_general`s ARE these functions at the ideal instance, whatever the left factor is.
-/
import proofs.«117079_j29935922053209_1_alg».proof.Proof.Gen.ReferenceIdeal.Read

noncomputable section

namespace Cert.ReferenceIdeal.Products

open Cert.ReferenceIdeal Cert.ReferenceIdeal.Gen Cert.ReferenceIdeal.Read Idealize.ShloMosaic Idealize.ShloMosaic.TcCoe Idealize.SL.Sem
open scoped BigOperators

/-- The first layer's product: features [100000, 1433] times weights [1433, 16]. -/
def featTimesW1 (x : (⟨S100000x1433, .f32⟩ : BufTy).Contents (Elt Ideal)) (w : (⟨S1433x16, .f32⟩ : BufTy).Contents (Elt Ideal)) :
    (⟨S100000x16, .f32⟩ : BufTy).Contents (Elt Ideal) :=
  fun i => ∑ k : Fin 1433, x (lidx_main_v4 i k) * w (ridx_main_v4 i k)

/-- The second layer's product: hidden activations [100000, 16] times weights [16, 7]. -/
def hidTimesW2 (y : (⟨S100000x16, .f32⟩ : BufTy).Contents (Elt Ideal)) (w : (⟨S16x7, .f32⟩ : BufTy).Contents (Elt Ideal)) :
    (⟨S100000x7, .f32⟩ : BufTy).Contents (Elt Ideal) :=
  fun i => ∑ k : Fin 16, y (lidx_main_v20 i k) * w (ridx_main_v20 i k)

/-- The host's first `dot_general` is the first product. -/
theorem dot1_eq (x : (⟨S100000x1433, .f32⟩ : BufTy).Contents (Elt Ideal)) (w : (⟨S1433x16, .f32⟩ : BufTy).Contents (Elt Ideal)) :
    Host.dotGeneral (F := Ideal) (φ₁ := .f32) (φ₂ := .f32) dot_S100000x1433_S1433x16_S100000x16_1_0_0_1_n_n none x w = featTimesW1 x w :=
  funext fun i => val_main_v4_apply x w i

/-- The host's second `dot_general` is the second product, for ANY left factor: the contraction index set is one axis of
    extent 16, re-indexed by `Fin 16`; the operand indices at output index (r, q) and contraction index k are (r, k) and (k, q). -/
theorem dot2_eq (y : (⟨S100000x16, .f32⟩ : BufTy).Contents (Elt Ideal)) (w : (⟨S16x7, .f32⟩ : BufTy).Contents (Elt Ideal)) :
    Host.dotGeneral (F := Ideal) (φ₁ := .f32) (φ₂ := .f32) dot_S100000x16_S16x7_S100000x7_1_0_0_1_n_n none y w = hidTimesW2 y w := by
  funext i
  unfold hidTimesW2
  simp only [Host.dotGeneral]
  rw [Ideal.dotGeneral_apply, ← Equiv.sum_comp (ValueIdx.contrEquiv1 dot_S100000x16_S16x7_S100000x7_1_0_0_1_n_n 16 rfl rfl).symm]
  refine Finset.sum_congr rfl fun k _ => ?_
  have hk := ValueIdx.contrEquiv1_symm_val dot_S100000x16_S16x7_S100000x7_1_0_0_1_n_n 16 rfl rfl k
  have el : dot_S100000x16_S16x7_S100000x7_1_0_0_1_n_n.lhsIdx i ((ValueIdx.contrEquiv1 dot_S100000x16_S16x7_S100000x7_1_0_0_1_n_n 16 rfl rfl).symm k) = lidx_main_v20 i k := funext fun a => Fin.ext (by
    match a with
    | ⟨0, _⟩ => exact lhs_main_v20_0 _ _
    | ⟨1, _⟩ => exact (lhs_main_v20_1 _ _).trans hk)
  have er : dot_S100000x16_S16x7_S100000x7_1_0_0_1_n_n.rhsIdx i ((ValueIdx.contrEquiv1 dot_S100000x16_S16x7_S100000x7_1_0_0_1_n_n 16 rfl rfl).symm k) = ridx_main_v20 i k := funext fun a => Fin.ext (by
    match a with
    | ⟨0, _⟩ => exact (rhs_main_v20_0 _ _).trans hk
    | ⟨1, _⟩ => exact rhs_main_v20_1 _ _)
  rw [el, er]

end Cert.ReferenceIdeal.Products

end
-- ==== Proof.Layers.lean ====
/-
  One graph-convolution layer as a function of its dense transform `t`: gather the rows of `t` at the edges'
  source nodes (a negative source index wrapped by the number of nodes, as jnp indexing does), add them into the rows
  of a zero array at the edges' destination nodes, add the self-loop `t` and the bias broadcast along the rows;
  the first layer ends with a maximum against zero. Both programs apply exactly these stretches of host operations
  to their dense transforms, so the layers are carried as two opaque functions and never opened.
  The reference's result is the second layer of its second `dot_general` of the first layer of its first.
-/
import proofs.«117079_j29935922053209_1_alg».proof.Proof.Gen.ReferenceIdeal.Read

noncomputable section

namespace Cert.ReferenceIdeal.Layers

open Cert.ReferenceIdeal Cert.ReferenceIdeal.Gen Cert.ReferenceIdeal.Read Idealize.ShloMosaic Idealize.ShloMosaic.TcCoe Idealize.SL.Sem

variable {F : FTy → Type} [FloatOps F]

/-- The first layer after its dense transform `t` [100000, 16]: edge aggregation, self-loop, bias, relu. -/
def layer1 (t : (⟨S100000x16, .f32⟩ : BufTy).Contents (Elt F)) (e : (⟨S2x3200000, .i32⟩ : BufTy).Contents (Elt F)) (b : (⟨S16, .f32⟩ : BufTy).Contents (Elt F)) :
    (⟨S100000x16, .f32⟩ : BufTy).Contents (Elt F) :=
  maximumf (addf (addf (Host.scatterAdd scatter_S100000x16_S3200000x1_S3200000x16_1_0_0_1 (val_main_v12 (F := F)) (val_main_v13 (F := F) e)
      (Host.gather gather_S100000x16_S3200000x1_S3200000x16_1_0_n_n_0_1_116 t (val_main_v10 (F := F) e))) t) (val_main_v17 (F := F) b))
    (val_main_call0_v0 (F := F))

/-- The second layer after its dense transform `t` [100000, 7]: edge aggregation, self-loop, bias. -/
def layer2 (t : (⟨S100000x7, .f32⟩ : BufTy).Contents (Elt F)) (e : (⟨S2x3200000, .i32⟩ : BufTy).Contents (Elt F)) (b : (⟨S7, .f32⟩ : BufTy).Contents (Elt F)) :
    (⟨S100000x7, .f32⟩ : BufTy).Contents (Elt F) :=
  addf (addf (Host.scatterAdd scatter_S100000x7_S3200000x1_S3200000x7_1_0_0_1 (val_main_v28 (F := F)) (val_main_v29 (F := F) e)
      (Host.gather gather_S100000x7_S3200000x1_S3200000x7_1_0_n_n_0_1_17 t (val_main_v26 (F := F) e))) t) (val_main_v33 (F := F) b)

/-- The reference's result, stage by stage, is layer 2 of (layer 1 of x·W1) · W2. -/
theorem ref_layers (x0 : (⟨S100000x1433, .f32⟩ : BufTy).Contents (Elt F)) (x1 : (⟨S2x3200000, .i32⟩ : BufTy).Contents (Elt F)) (x2 : (⟨S1433x16, .f32⟩ : BufTy).Contents (Elt F))
    (x3 : (⟨S16, .f32⟩ : BufTy).Contents (Elt F)) (x4 : (⟨S16x7, .f32⟩ : BufTy).Contents (Elt F)) (x5 : (⟨S7, .f32⟩ : BufTy).Contents (Elt F)) :
    val_main_v34 (F := F) x0 x1 x2 x3 x4 x5
      = layer2 (Host.dotGeneral dot_S100000x16_S16x7_S100000x7_1_0_0_1_n_n none
          (layer1 (Host.dotGeneral dot_S100000x1433_S1433x16_S100000x16_1_0_0_1_n_n none x0 x2) x1 x3) x4) x1 x5 := by
  unfold val_main_v34 val_main_v31 val_main_v30 val_main_v27 val_main_v20 val_main_v19 val_main_v18 val_main_v15 val_main_v14 val_main_v11 val_main_v4 layer2 layer1
  rfl

end Cert.ReferenceIdeal.Layers

end
-- ==== Proof.HostWalk.lean ====
/-
  The kernel's program between and after its two regions, read back. Its host operations are the same stretches the
  reference runs: the edge list split into source and destination rows (before region 0), the first layer's
  aggregation, self-loop, bias and relu (between the regions, on region 0's output), and the second layer's
  aggregation, self-loop and bias (after region 1, on region 1's output). So the buffer region 1 reads as its left
  factor holds layer 1 of region 0's output array, and the result buffer holds layer 2 of region 1's output array;
  the weights each region reads are the launch arrays, which nothing writes.
-/
import proofs.«117079_j29935922053209_1_alg».proof.Proof.Gen.KernelIdeal.Frame
import proofs.«117079_j29935922053209_1_alg».proof.Proof.Layers
import Idealize.ShloMosaic.Lib.StableHlo.Run

set_option maxRecDepth 16384

noncomputable section

namespace Cert.KernelIdeal.Walk

open Idealize.ShloMosaic Idealize.ShloMosaic.TcCoe Idealize.ShloMosaic.Tactic
open Idealize.SL Idealize.SL.Sem
open Idealize.ShloMosaic.StableHlo
open Idealize.ShloMosaic.Pipeline (Dat)
open Cert.KernelIdeal.Gen
open Cert.ReferenceIdeal.Layers Cert.ReferenceIdeal.Read

variable {F : FTy → Type} [FloatOps F]
variable (m : (ℓ : Loc nD τ sig) → Buf (Elt F) ℓ) (ρ : Dev nD → PrngReg)

/-- No operation of a stretch writes the buffer: each operation writes its one result buffer, another one. -/
local macro "unwritten" : tactic =>
  `(tactic| (refine List.forall_iff_forall_mem.mp ?_
             simp only [hostOps0, hostOps1, hostOps1_1, hostOps2, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Before region 0 -/

/-- Region 0 finds the features as launched. -/
theorem feat_at_entry0 (c : Dev nD) : V1 m ρ c main_arg0 = m ((c : Thread nD τ).loc main_arg0) :=
  StableHlo.after_of_forall_not_mem (b := Proc.devRef .tc main_arg0) _ _ (by unwritten)
/-- Region 0 finds the first weights as launched. -/
theorem w1_at_entry0 (c : Dev nD) : V1 m ρ c main_arg2 = m ((c : Thread nD τ).loc main_arg2) :=
  StableHlo.after_of_forall_not_mem (b := Proc.devRef .tc main_arg2) _ _ (by unwritten)

/-- The edges' source row after the first stretch. -/
theorem src_W1 (c : Dev nD) : W1 m ρ c (Proc.devRef .tc main_v1) = val_main_v1 (F := F) (m ((c : Thread nD τ).loc main_arg1)) := by
  show StableHlo.after hostOps0 (W0 m ρ c) (Proc.devRef .tc main_v1) = _
  simp only [hostOps0]
  after_results
  rfl
/-- The edges' destination row after the first stretch. -/
theorem dst_W1 (c : Dev nD) : W1 m ρ c (Proc.devRef .tc main_v3) = val_main_v3 (F := F) (m ((c : Thread nD τ).loc main_arg1)) := by
  show StableHlo.after hostOps0 (W0 m ρ c) (Proc.devRef .tc main_v3) = _
  simp only [hostOps0]
  after_results
  rfl
theorem b1_W1 (c : Dev nD) : W1 m ρ c (Proc.devRef .tc main_arg3) = m ((c : Thread nD τ).loc main_arg3) :=
  StableHlo.after_of_forall_not_mem (b := Proc.devRef .tc main_arg3) _ _ (by unwritten)
theorem w2_W1 (c : Dev nD) : W1 m ρ c (Proc.devRef .tc main_arg4) = m ((c : Thread nD τ).loc main_arg4) :=
  StableHlo.after_of_forall_not_mem (b := Proc.devRef .tc main_arg4) _ _ (by unwritten)
theorem b2_W1 (c : Dev nD) : W1 m ρ c (Proc.devRef .tc main_arg5) = m ((c : Thread nD τ).loc main_arg5) :=
  StableHlo.after_of_forall_not_mem (b := Proc.devRef .tc main_arg5) _ _ (by unwritten)

/-! ## Between the regions -/

theorem out0_W2 (c : Dev nD) : W2 m ρ c (Proc.devRef .tc main_v4) = (dat0 (V1 m ρ) c).arrAt 2 cfg0.N := W2_arr m ρ c 2
theorem src_W2 (c : Dev nD) : W2 m ρ c (Proc.devRef .tc main_v1) = val_main_v1 (F := F) (m ((c : Thread nD τ).loc main_arg1)) :=
  (W2_of_ne m ρ c main_v1 (by decide)).trans (src_W1 m ρ c)
theorem dst_W2 (c : Dev nD) : W2 m ρ c (Proc.devRef .tc main_v3) = val_main_v3 (F := F) (m ((c : Thread nD τ).loc main_arg1)) :=
  (W2_of_ne m ρ c main_v3 (by decide)).trans (dst_W1 m ρ c)
theorem b1_W2 (c : Dev nD) : W2 m ρ c (Proc.devRef .tc main_arg3) = m ((c : Thread nD τ).loc main_arg3) :=
  (W2_of_ne m ρ c main_arg3 (by decide)).trans (b1_W1 m ρ c)

/-- A buffer neither stretch between the regions writes holds at region 1's entry what it held at region 0's exit. -/
theorem W4_eq_W2 (c : Dev nD) (b : Ref sig .tc)
    (h1 : ∀ op ∈ (hostOps1 : List (HloOp τ sig (Elt F))), Proc.devRef .tc b ∉ op.writes)
    (h11 : ∀ op ∈ (hostOps1_1 : List (HloOp τ sig (Elt F))), Proc.devRef .tc b ∉ op.writes) :
    W4 m ρ c (Proc.devRef .tc b) = W2 m ρ c (Proc.devRef .tc b) :=
  (StableHlo.after_of_forall_not_mem (b := Proc.devRef .tc b) _ _ h11).trans
    (StableHlo.after_of_forall_not_mem (b := Proc.devRef .tc b) _ _ h1)

/-- Region 1 finds the second weights as launched. -/
theorem w2_at_entry1 (c : Dev nD) : V4 m ρ c main_arg4 = m ((c : Thread nD τ).loc main_arg4) :=
  (W4_eq_W2 m ρ c main_arg4 (by unwritten) (by unwritten)).trans ((W2_of_ne m ρ c main_arg4 (by decide)).trans (w2_W1 m ρ c))

set_option maxHeartbeats 2000000 in
/-- Region 1's left factor is layer 1 of region 0's output array. -/
theorem hidden_at_entry1 (c : Dev nD) :
    V4 m ρ c main_v19 = layer1 (F := F) ((dat0 (V1 m ρ) c).arrAt 2 cfg0.N) (m ((c : Thread nD τ).loc main_arg1)) (m ((c : Thread nD τ).loc main_arg3)) := by
  show StableHlo.after hostOps1_1 (StableHlo.after hostOps1 (W2 m ρ c)) (Proc.devRef .tc main_v19) = _
  simp only [hostOps1_1, hostOps1]
  after_results_simp
  rw [out0_W2, src_W2, dst_W2, b1_W2]
  rfl

/-! ## After region 1 -/

theorem out1_W5 (c : Dev nD) : W5 m ρ c (Proc.devRef .tc main_v20) = (dat1 (V4 m ρ) c).arrAt 2 cfg1.N := W5_arr m ρ c 2
theorem src_W5 (c : Dev nD) : W5 m ρ c (Proc.devRef .tc main_v1) = val_main_v1 (F := F) (m ((c : Thread nD τ).loc main_arg1)) :=
  (W5_of_ne m ρ c main_v1 (by decide)).trans ((W4_eq_W2 m ρ c main_v1 (by unwritten) (by unwritten)).trans (src_W2 m ρ c))
theorem dst_W5 (c : Dev nD) : W5 m ρ c (Proc.devRef .tc main_v3) = val_main_v3 (F := F) (m ((c : Thread nD τ).loc main_arg1)) :=
  (W5_of_ne m ρ c main_v3 (by decide)).trans ((W4_eq_W2 m ρ c main_v3 (by unwritten) (by unwritten)).trans (dst_W2 m ρ c))
theorem b2_W5 (c : Dev nD) : W5 m ρ c (Proc.devRef .tc main_arg5) = m ((c : Thread nD τ).loc main_arg5) :=
  (W5_of_ne m ρ c main_arg5 (by decide)).trans ((W4_eq_W2 m ρ c main_arg5 (by unwritten) (by unwritten)).trans
    ((W2_of_ne m ρ c main_arg5 (by decide)).trans (b2_W1 m ρ c)))

set_option maxHeartbeats 2000000 in
/-- The result buffer is layer 2 of region 1's output array. -/
theorem result_at_return (c : Dev nD) :
    W6 m ρ c (Proc.devRef .tc main_v34) = layer2 (F := F) ((dat1 (V4 m ρ) c).arrAt 2 cfg1.N) (m ((c : Thread nD τ).loc main_arg1)) (m ((c : Thread nD τ).loc main_arg5)) := by
  show StableHlo.after hostOps2 (W5 m ρ c) (Proc.devRef .tc main_v34) = _
  simp only [hostOps2]
  after_results_simp
  rw [out1_W5, src_W5, dst_W5, b2_W5]
  rfl

end Cert.KernelIdeal.Walk

end
-- ==== Proof.Matmul0.lean ====
/-
  Region 0, the first dense transform. At grid point t the body multiplies rows 1000·t … 1000·t + 999 of the features
  by the whole weight matrix into a zero accumulator (the bf16 casts are the identity on extended reals) and writes the
  product back as rows 1000·t … 1000·t + 999 of the output. Entry (p, q) of that block is the sum over k of
  features(1000·t + p, k) · weights(k, q), which is entry (1000·t + p, q) of the whole product; the hundred row blocks
  tile the output, so after the region the output array IS the whole product of the arrays the region found.
-/
import proofs.«117079_j29935922053209_1_alg».proof.Proof.Gen.KernelIdeal.Frame
import proofs.«117079_j29935922053209_1_alg».proof.Proof.Products
import Idealize.ShloMosaic.Lib.Pipeline.Value
import Idealize.ShloMosaic.Lib.ValueIdx
import Idealize.ShloMosaic.PureOps.Ideal.Laws

set_option maxRecDepth 16384

noncomputable section

namespace Cert.KernelIdeal.Mm0

open Cert.KernelIdeal Cert.KernelIdeal.Gen Idealize.ShloMosaic Idealize.ShloMosaic.TcCoe Idealize.SL.Sem
open Idealize.ShloMosaic.Pipeline (Dat)
open Cert.ReferenceIdeal.Products Cert.ReferenceIdeal.Read
open scoped BigOperators

/-! ## The block product at an index -/

theorem lhs_axis0 (i : S1000x16.Idx) (q : dot_S1000x1433_S1433x16_S1000x16_1_0_0_1_n_n.contr.Idx) :
    (dot_S1000x1433_S1433x16_S1000x16_1_0_0_1_n_n.lhsIdx i q 0).val = (i 0).val := by
  unfold DotDims.lhsIdx
  rw [dif_neg (show ¬(0 : Fin S1000x1433.rank) ∈ dot_S1000x1433_S1433x16_S1000x16_1_0_0_1_n_n.lhsBatch by decide), dif_pos (show (0 : Fin S1000x1433.rank) ∈ dot_S1000x1433_S1433x16_S1000x16_1_0_0_1_n_n.lhsNonContracting by decide)]
  rfl
theorem lhs_axis1 (i : S1000x16.Idx) (q : dot_S1000x1433_S1433x16_S1000x16_1_0_0_1_n_n.contr.Idx) :
    (dot_S1000x1433_S1433x16_S1000x16_1_0_0_1_n_n.lhsIdx i q 1).val = (q ⟨0, by decide⟩).val :=
  dot_S1000x1433_S1433x16_S1000x16_1_0_0_1_n_n.lhsIdx_val_of_single rfl i q
theorem rhs_axis0 (i : S1000x16.Idx) (q : dot_S1000x1433_S1433x16_S1000x16_1_0_0_1_n_n.contr.Idx) :
    (dot_S1000x1433_S1433x16_S1000x16_1_0_0_1_n_n.rhsIdx i q 0).val = (q ⟨0, by decide⟩).val :=
  dot_S1000x1433_S1433x16_S1000x16_1_0_0_1_n_n.rhsIdx_val_of_single rfl i q
theorem rhs_axis1 (i : S1000x16.Idx) (q : dot_S1000x1433_S1433x16_S1000x16_1_0_0_1_n_n.contr.Idx) :
    (dot_S1000x1433_S1433x16_S1000x16_1_0_0_1_n_n.rhsIdx i q 1).val = (i 1).val := by
  unfold DotDims.rhsIdx
  rw [dif_neg (show ¬(1 : Fin S1433x16.rank) ∈ dot_S1000x1433_S1433x16_S1000x16_1_0_0_1_n_n.rhsBatch by decide), dif_pos (show (1 : Fin S1433x16.rank) ∈ dot_S1000x1433_S1433x16_S1000x16_1_0_0_1_n_n.rhsNonContracting by decide)]
  rfl

/-- Row `j 0` of the feature block at column `k`. -/
abbrev featAt (j : S1000x16.Idx) (k : Fin 1433) : S1000x1433.Idx := fun a => match a with
  | ⟨0, _⟩ => ⟨(j 0).val, (j 0).isLt⟩
  | ⟨1, _⟩ => ⟨k.val, k.isLt⟩
/-- Row `k` of the weights at column `j 1`. -/
abbrev wAt (j : S1000x16.Idx) (k : Fin 1433) : S1433x16.Idx := fun a => match a with
  | ⟨0, _⟩ => ⟨k.val, k.isLt⟩
  | ⟨1, _⟩ => ⟨(j 1).val, (j 1).isLt⟩

/-- What the body stores, at an index: the row of the feature block times the column of the weights. -/
theorem block_product (x0 : Vec Ideal S1000x1433 .f32) (x1 : Vec Ideal S1433x16 .f32) (j : S1000x16.Idx) :
    k0_pay1 (F := Ideal) x0 x1 j = ∑ k : Fin 1433, x0 (featAt j k) * x1 (wAt j k) := by
  unfold k0_pay1
  simp only [matmul]
  rw [Ideal.matmul_constant_zero_apply, ← Equiv.sum_comp (ValueIdx.contrEquiv1 dot_S1000x1433_S1433x16_S1000x16_1_0_0_1_n_n 1433 rfl rfl).symm]
  refine Finset.sum_congr rfl fun k _ => ?_
  have hk := ValueIdx.contrEquiv1_symm_val dot_S1000x1433_S1433x16_S1000x16_1_0_0_1_n_n 1433 rfl rfl k
  have el : dot_S1000x1433_S1433x16_S1000x16_1_0_0_1_n_n.lhsIdx j ((ValueIdx.contrEquiv1 dot_S1000x1433_S1433x16_S1000x16_1_0_0_1_n_n 1433 rfl rfl).symm k) = featAt j k := funext fun a => Fin.ext (by
    match a with
    | ⟨0, _⟩ => exact lhs_axis0 _ _
    | ⟨1, _⟩ => exact (lhs_axis1 _ _).trans hk)
  have er : dot_S1000x1433_S1433x16_S1000x16_1_0_0_1_n_n.rhsIdx j ((ValueIdx.contrEquiv1 dot_S1000x1433_S1433x16_S1000x16_1_0_0_1_n_n 1433 rfl rfl).symm k) = wAt j k := funext fun a => Fin.ext (by
    match a with
    | ⟨0, _⟩ => exact (rhs_axis0 _ _).trans hk
    | ⟨1, _⟩ => exact rhs_axis1 _ _)
  rw [el, er]
  rfl

/-! ## From the blocks to the array -/

theorem zero_off : (![0, 0] : Fin 2 → Nat) = fun _ => 0 := funext fun a => by fin_cases a <;> rfl

/-- The printed index maps over the grid: the feature window and the output window are at row block t, the weight
    window stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature array and the weight array as region 0 finds them, at their literal types. -/
abbrev featArr (c : Dev nD) : (⟨Cert.ReferenceIdeal.S100000x1433, .f32⟩ : BufTy).Contents (Elt Ideal) := V c main_arg0
abbrev w1Arr (c : Dev nD) : (⟨Cert.ReferenceIdeal.S1433x16, .f32⟩ : BufTy).Contents (Elt Ideal) := V c main_arg2

/-- What point t writes back is block t of the whole product of the arrays the region found. -/
theorem written_back (c : Dev nD) (t : Fin cfg0.N) :
    (dat0 (F := Ideal) V c).flushed 2 t
      = ((cfg0.win 2).blk t).view.read (Elt Ideal) (featTimesW1 (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S1000x1433) zero_off, View.ld_unit_zero (S := S1433x16) zero_off]
  obtain ⟨e0, e1, e2, e3, e4, e5⟩ := block_indices t
  funext j
  show k0_pay1 (F := Ideal) (iblk0 V c 0 t) (iblk0 V c 1 t) j = featTimesW1 (V c main_arg0) (V c main_arg2) (((cfg0.win 2).blk t).view.emb j)
  refine (block_product (iblk0 V c 0 t) (iblk0 V c 1 t) j).trans ?_
  unfold featTimesW1
  refine Finset.sum_congr rfl fun k _ => ?_
  show featArr V c (((cfg0.win 0).blk t).view.emb (featAt j k)) * w1Arr V c (((cfg0.win 1).blk t).view.emb (wAt j k))
    = featArr V c (lidx_main_v4 (((cfg0.win 2).blk t).view.emb j) k) * w1Arr V c (ridx_main_v4 (((cfg0.win 2).blk t).view.emb j) k)
  have h0 : ((cfg0.win 0).blk t).view.emb (featAt j k) = lidx_main_v4 (((cfg0.win 2).blk t).view.emb j) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 1433 + 1 * k.val = k.val; omega
  have h1 : ((cfg0.win 1).blk t).view.emb (wAt j k) = ridx_main_v4 (((cfg0.win 2).blk t).view.emb j) k := by
    funext a; apply Fin.ext
    match a with
    | ⟨0, _⟩ => show win0_1.index t (0 : Fin 2) * 1433 + 1 * k.val = k.val; omega
    | ⟨1, _⟩ => show win0_1.index t (1 : Fin 2) * 16 + 1 * (j 1).val = win0_2.index t (1 : Fin 2) * 16 + 1 * (j 1).val; omega
  rw [h0, h1]

/-- An index of the output is in point t's block iff each coordinate is in the block's range on its axis. -/
theorem in_block (t : Fin cfg0.N) (i : S100000x16.Idx) :
    i ∈ ((cfg0.win 2).blk t).view.set ↔ ∀ a : Fin 2, win0_2.index t a * S1000x16.size a ≤ (i a).val ∧ (i a).val < win0_2.index t a * S1000x16.size a + S1000x16.size a := by
  show i ∈ ((View.whole main_v4).slice (win0_2.rect t)).set ↔ _
  rw [View.set_slice_whole, Rect.mem_set_unit]
  exact Iff.rfl

/-- Row r of the output lies in the block of point r / 1000. -/
theorem tiled (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 1000 < cfg0.N := by show _ < grid0.N; rw [N_0]; omega
  obtain ⟨-, -, -, -, e4, e5⟩ := block_indices ⟨(i 0).val / 1000, hN⟩
  refine ⟨⟨(i 0).val / 1000, hN⟩, flush0_2 _, ?_⟩
  rw [in_block]
  intro a
  match a with
  | ⟨0, _⟩ =>
    show win0_2.index ⟨(i 0).val / 1000, hN⟩ (0 : Fin 2) * 1000 ≤ (i 0).val ∧ (i 0).val < win0_2.index ⟨(i 0).val / 1000, hN⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, hN⟩ (1 : Fin 2) * 16 ≤ (i 1).val ∧ (i 1).val < win0_2.index ⟨(i 0).val / 1000, hN⟩ (1 : Fin 2) * 16 + 16
    rw [e5]; omega

/-- After region 0 its output array is the whole product of the feature and weight arrays the region found. -/
theorem region0_array (c : Dev nD) :
    (dat0 (F := Ideal) V c).arrAt 2 cfg0.N = featTimesW1 (V c main_arg0) (V c main_arg2) :=
  (dat0 (F := Ideal) V c).arrAt_eq_of_cover 2 (featTimesW1 (V c main_arg0) (V c main_arg2)) (fun t _ => written_back V c t) tiled

end Cert.KernelIdeal.Mm0

end
-- ==== Proof.Matmul1.lean ====
/-
  Region 1, the second dense transform. At grid point t the body multiplies rows 5000·t … 5000·t + 4999 of the hidden
  activations (through a shape cast of the block to its own shape and the bf16 casts, all the identity here) by the whole
  second weight matrix into a zero accumulator and writes the product back as the same rows of the output. Entry (p, q)
  of that block is the sum over k of hidden(5000·t + p, k) · weights(k, q), entry (5000·t + p, q) of the whole product;
  the twenty row blocks tile the output, so after the region the output array IS the whole product of the arrays the
  region found.
-/
import proofs.«117079_j29935922053209_1_alg».proof.Proof.Gen.KernelIdeal.Frame
import proofs.«117079_j29935922053209_1_alg».proof.Proof.Products
import Idealize.ShloMosaic.Lib.Pipeline.Value
import Idealize.ShloMosaic.Lib.ValueIdx
import Idealize.ShloMosaic.PureOps.Ideal.Laws

set_option maxRecDepth 16384

noncomputable section

namespace Cert.KernelIdeal.Mm1

open Cert.KernelIdeal Cert.KernelIdeal.Gen Idealize.ShloMosaic Idealize.ShloMosaic.TcCoe Idealize.SL.Sem
open Idealize.ShloMosaic.Pipeline (Dat)
open Cert.ReferenceIdeal.Products Cert.ReferenceIdeal.Read
open scoped BigOperators

/-! ## The block product at an index -/

theorem lhs_axis0 (i : S5000x7.Idx) (q : dot_S5000x16_S16x7_S5000x7_1_0_0_1_n_n.contr.Idx) :
    (dot_S5000x16_S16x7_S5000x7_1_0_0_1_n_n.lhsIdx i q 0).val = (i 0).val := by
  unfold DotDims.lhsIdx
  rw [dif_neg (show ¬(0 : Fin S5000x16.rank) ∈ dot_S5000x16_S16x7_S5000x7_1_0_0_1_n_n.lhsBatch by decide), dif_pos (show (0 : Fin S5000x16.rank) ∈ dot_S5000x16_S16x7_S5000x7_1_0_0_1_n_n.lhsNonContracting by decide)]
  rfl
theorem lhs_axis1 (i : S5000x7.Idx) (q : dot_S5000x16_S16x7_S5000x7_1_0_0_1_n_n.contr.Idx) :
    (dot_S5000x16_S16x7_S5000x7_1_0_0_1_n_n.lhsIdx i q 1).val = (q ⟨0, by decide⟩).val :=
  dot_S5000x16_S16x7_S5000x7_1_0_0_1_n_n.lhsIdx_val_of_single rfl i q
theorem rhs_axis0 (i : S5000x7.Idx) (q : dot_S5000x16_S16x7_S5000x7_1_0_0_1_n_n.contr.Idx) :
    (dot_S5000x16_S16x7_S5000x7_1_0_0_1_n_n.rhsIdx i q 0).val = (q ⟨0, by decide⟩).val :=
  dot_S5000x16_S16x7_S5000x7_1_0_0_1_n_n.rhsIdx_val_of_single rfl i q
theorem rhs_axis1 (i : S5000x7.Idx) (q : dot_S5000x16_S16x7_S5000x7_1_0_0_1_n_n.contr.Idx) :
    (dot_S5000x16_S16x7_S5000x7_1_0_0_1_n_n.rhsIdx i q 1).val = (i 1).val := by
  unfold DotDims.rhsIdx
  rw [dif_neg (show ¬(1 : Fin S16x7.rank) ∈ dot_S5000x16_S16x7_S5000x7_1_0_0_1_n_n.rhsBatch by decide), dif_pos (show (1 : Fin S16x7.rank) ∈ dot_S5000x16_S16x7_S5000x7_1_0_0_1_n_n.rhsNonContracting by decide)]
  rfl

/-- Row `j 0` of the hidden block at column `k`. -/
abbrev hidAt (j : S5000x7.Idx) (k : Fin 16) : S5000x16.Idx := fun a => match a with
  | ⟨0, _⟩ => ⟨(j 0).val, (j 0).isLt⟩
  | ⟨1, _⟩ => ⟨k.val, k.isLt⟩
/-- Row `k` of the weights at column `j 1`. -/
abbrev wAt (j : S5000x7.Idx) (k : Fin 16) : S16x7.Idx := fun a => match a with
  | ⟨0, _⟩ => ⟨k.val, k.isLt⟩
  | ⟨1, _⟩ => ⟨(j 1).val, (j 1).isLt⟩

/-- What the body stores, at an index: the row of the hidden block times the column of the weights. -/
theorem block_product (x0 : Vec Ideal S5000x16 .f32) (x1 : Vec Ideal S16x7 .f32) (j : S5000x7.Idx) :
    k1_pay1 (F := Ideal) x0 x1 j = ∑ k : Fin 16, x0 (hidAt j k) * x1 (wAt j k) := by
  unfold k1_pay1
  simp only [matmul, shapeCast_self]
  rw [Ideal.matmul_constant_zero_apply, ← Equiv.sum_comp (ValueIdx.contrEquiv1 dot_S5000x16_S16x7_S5000x7_1_0_0_1_n_n 16 rfl rfl).symm]
  refine Finset.sum_congr rfl fun k _ => ?_
  have hk := ValueIdx.contrEquiv1_symm_val dot_S5000x16_S16x7_S5000x7_1_0_0_1_n_n 16 rfl rfl k
  have el : dot_S5000x16_S16x7_S5000x7_1_0_0_1_n_n.lhsIdx j ((ValueIdx.contrEquiv1 dot_S5000x16_S16x7_S5000x7_1_0_0_1_n_n 16 rfl rfl).symm k) = hidAt j k := funext fun a => Fin.ext (by
    match a with
    | ⟨0, _⟩ => exact lhs_axis0 _ _
    | ⟨1, _⟩ => exact (lhs_axis1 _ _).trans hk)
  have er : dot_S5000x16_S16x7_S5000x7_1_0_0_1_n_n.rhsIdx j ((ValueIdx.contrEquiv1 dot_S5000x16_S16x7_S5000x7_1_0_0_1_n_n 16 rfl rfl).symm k) = wAt j k := funext fun a => Fin.ext (by
    match a with
    | ⟨0, _⟩ => exact (rhs_axis0 _ _).trans hk
    | ⟨1, _⟩ => exact rhs_axis1 _ _)
  rw [el, er]
  rfl

/-! ## From the blocks to the array -/

theorem zero_off : (![0, 0] : Fin 2 → Nat) = fun _ => 0 := funext fun a => by fin_cases a <;> rfl

/-- The printed index maps over the grid: the hidden window and the output window are at row block t, the weight
    window stays at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The hidden array and the weight array as region 1 finds them, at their literal types. -/
abbrev hidArr (c : Dev nD) : (⟨Cert.ReferenceIdeal.S100000x16, .f32⟩ : BufTy).Contents (Elt Ideal) := V c main_v19
abbrev w2Arr (c : Dev nD) : (⟨Cert.ReferenceIdeal.S16x7, .f32⟩ : BufTy).Contents (Elt Ideal) := V c main_arg4

/-- What point t writes back is block t of the whole product of the arrays the region found. -/
theorem written_back (c : Dev nD) (t : Fin cfg1.N) :
    (dat1 (F := Ideal) V c).flushed 2 t
      = ((cfg1.win 2).blk t).view.read (Elt Ideal) (hidTimesW2 (V c main_v19) (V c main_arg4)) := by
  show (cfg1.win 2).cut (grid1.coords t) ((dat1 (F := Ideal) V c).after 2 t) = _
  rw [after1_2]
  unfold out1_2
  rw [View.canon_unit_zero zero_off]
  simp only [View.ld_unit_zero (S := S5000x16) zero_off, View.ld_unit_zero (S := S16x7) zero_off]
  obtain ⟨e0, e1, e2, e3, e4, e5⟩ := block_indices t
  funext j
  show k1_pay1 (F := Ideal) (iblk1 V c 0 t) (iblk1 V c 1 t) j = hidTimesW2 (V c main_v19) (V c main_arg4) (((cfg1.win 2).blk t).view.emb j)
  refine (block_product (iblk1 V c 0 t) (iblk1 V c 1 t) j).trans ?_
  unfold hidTimesW2
  refine Finset.sum_congr rfl fun k _ => ?_
  show hidArr V c (((cfg1.win 0).blk t).view.emb (hidAt j k)) * w2Arr V c (((cfg1.win 1).blk t).view.emb (wAt j k))
    = hidArr V c (lidx_main_v20 (((cfg1.win 2).blk t).view.emb j) k) * w2Arr V c (ridx_main_v20 (((cfg1.win 2).blk t).view.emb j) k)
  have h0 : ((cfg1.win 0).blk t).view.emb (hidAt j k) = lidx_main_v20 (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * k.val = k.val; omega
  have h1 : ((cfg1.win 1).blk t).view.emb (wAt j k) = ridx_main_v20 (((cfg1.win 2).blk t).view.emb j) k := by
    funext a; apply Fin.ext
    match a with
    | ⟨0, _⟩ => show win1_1.index t (0 : Fin 2) * 16 + 1 * k.val = k.val; omega
    | ⟨1, _⟩ => show win1_1.index t (1 : Fin 2) * 7 + 1 * (j 1).val = win1_2.index t (1 : Fin 2) * 7 + 1 * (j 1).val; omega
  rw [h0, h1]

/-- An index of the output is in point t's block iff each coordinate is in the block's range on its axis. -/
theorem in_block (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v20).slice (win1_2.rect t)).set ↔ _
  rw [View.set_slice_whole, Rect.mem_set_unit]
  exact Iff.rfl

/-- Row r of the output lies in the block of point r / 5000. -/
theorem tiled (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : (i 0).val / 5000 < cfg1.N := by show _ < grid1.N; rw [N_1]; omega
  obtain ⟨-, -, -, -, e4, e5⟩ := block_indices ⟨(i 0).val / 5000, hN⟩
  refine ⟨⟨(i 0).val / 5000, hN⟩, flush1_2 _, ?_⟩
  rw [in_block]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hN⟩ (1 : Fin 2) * 7 ≤ (i 1).val ∧ (i 1).val < win1_2.index ⟨(i 0).val / 5000, hN⟩ (1 : Fin 2) * 7 + 7
    rw [e5]; omega

/-- After region 1 its output array is the whole product of the hidden and weight arrays the region found. -/
theorem region1_array (c : Dev nD) :
    (dat1 (F := Ideal) V c).arrAt 2 cfg1.N = hidTimesW2 (V c main_v19) (V c main_arg4) :=
  (dat1 (F := Ideal) V c).arrAt_eq_of_cover 2 (hidTimesW2 (V c main_v19) (V c main_arg4)) (fun t _ => written_back V c t) tiled

end Cert.KernelIdeal.Mm1

end
-- ==== Proof.lean ====
/-
  A two-layer graph convolution network over 100000 nodes and 3.2 million edges:
      out = L2( relu-layer L1( x · W1 ) · W2 ),
  where a layer L(t) gathers the rows of its dense transform t at the edges' source nodes, adds them into the rows at the
  edges' destination nodes, adds the self-loop t and the bias (and, in the first layer, takes the maximum with zero).
  The kernel computes the two dense transforms x · W1 and h · W2 in two tiled regions (row blocks of 1000 and of 5000
  rows, the operands cast to bf16, a zero accumulator) and everything else with the same host operations as the
  reference, which computes the transforms with two `dot_general`s.
  Over the extended reals a cast is the identity and each region's output array is the whole product, entry (r, q) the
  sum over k of left(r, k) · right(k, q): the block products are restrictions of it and the blocks tile the rows
  (Proof/Matmul0.lean, Proof/Matmul1.lean); a `dot_general` is the same sum (Proof/Products.lean). The layers are carried
  as two functions applied to those equal products and never opened (Proof/Layers.lean, Proof/HostWalk.lean), so no law
  of the extended reals beyond reading the two products as the same sum is used, and the precondition is never opened.
  The kernel's run with its result named is the several-region launch applied once more (Proof/KernelRun.lean); the
  three frames are the generated ones, the reference's its generated run with the result dropped; there is no
  idealization rewrite to preserve.
-/
import proofs.«117079_j29935922053209_1_alg».proof.Defs
import proofs.«117079_j29935922053209_1_alg».proof.Proof.Gen.Kernel
import proofs.«117079_j29935922053209_1_alg».proof.Proof.Gen.Kernel.Frame
import proofs.«117079_j29935922053209_1_alg».proof.Proof.Gen.KernelIdeal
import proofs.«117079_j29935922053209_1_alg».proof.Proof.Gen.KernelIdeal.Frame
import proofs.«117079_j29935922053209_1_alg».proof.Proof.Gen.ReferenceIdeal
import proofs.«117079_j29935922053209_1_alg».proof.Proof.Gen.ReferenceIdeal.Run
import proofs.«117079_j29935922053209_1_alg».proof.Proof.Gen.ReferenceIdeal.Read
import proofs.«117079_j29935922053209_1_alg».proof.Proof.Gen.Pre_finite_inputs
import proofs.«117079_j29935922053209_1_alg».proof.Proof.Products
import proofs.«117079_j29935922053209_1_alg».proof.Proof.Layers
import proofs.«117079_j29935922053209_1_alg».proof.Proof.KernelRun
import proofs.«117079_j29935922053209_1_alg».proof.Proof.HostWalk
import proofs.«117079_j29935922053209_1_alg».proof.Proof.Matmul0
import proofs.«117079_j29935922053209_1_alg».proof.Proof.Matmul1
import Idealize.ShloMosaic.Adequacy
import Idealize.ShloMosaic.Init

noncomputable section

namespace Cert.Proof

open Idealize.ShloMosaic Idealize.ShloMosaic.TcCoe Idealize.SL.Sem
open Cert.ReferenceIdeal.Products Cert.ReferenceIdeal.Layers

/-- The network's output as a function of its six input arrays, over the extended reals. -/
def network (x : (⟨Cert.ReferenceIdeal.S100000x1433, .f32⟩ : BufTy).Contents (Elt Ideal)) (e : (⟨Cert.ReferenceIdeal.S2x3200000, .i32⟩ : BufTy).Contents (Elt Ideal))
    (w1 : (⟨Cert.ReferenceIdeal.S1433x16, .f32⟩ : BufTy).Contents (Elt Ideal)) (b1 : (⟨Cert.ReferenceIdeal.S16, .f32⟩ : BufTy).Contents (Elt Ideal))
    (w2 : (⟨Cert.ReferenceIdeal.S16x7, .f32⟩ : BufTy).Contents (Elt Ideal)) (b2 : (⟨Cert.ReferenceIdeal.S7, .f32⟩ : BufTy).Contents (Elt Ideal)) :
    (⟨Cert.ReferenceIdeal.S100000x7, .f32⟩ : BufTy).Contents (Elt Ideal) :=
  layer2 (F := Ideal) (hidTimesW2 (layer1 (F := Ideal) (featTimesW1 x w1) e b1) w2) e b2

/-- The kernel's result buffer at the return holds the network of the launch arrays: layer 2 of region 1's array, which
    is the product of what region 1 found — layer 1 of region 0's array and the second weights —, region 0's array the
    product of the features and the first weights. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W6 m ρ c (Proc.devRef .tc Cert.KernelIdeal.main_v34)
      = network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Walk.result_at_return, Cert.KernelIdeal.Mm1.region1_array, Cert.KernelIdeal.Walk.hidden_at_entry1, Cert.KernelIdeal.Walk.w2_at_entry1,
    Cert.KernelIdeal.Mm0.region0_array, Cert.KernelIdeal.Walk.feat_at_entry0, Cert.KernelIdeal.Walk.w1_at_entry0]
  rfl

/-- The reference's result term is the network of its launch arrays: its stages are the layers over its two
    `dot_general`s, and those are the two products. -/
theorem reference_value (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v34 (F := Ideal) m' c
      = network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [Cert.ReferenceIdeal.Read.val_main_v34_eq, ref_layers, dot1_eq, dot2_eq]
  rfl

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the network of the (agreeing) launch arrays in their result buffers. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [reference_value, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
